-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x128 : Shape := ⟨2, ![4096, 128]⟩
abbrev S4096x128x32 : Shape := ⟨3, ![4096, 128, 32]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S2x2048x4096 .f32) (main_arg1 : FVec F S4096x128 .f32) (main_arg2 : IVec S4096x128x32 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S2x2048x4096 : Shape := ⟨3, ![2, 2048, 4096]⟩
abbrev S4096x128 : Shape := ⟨2, ![4096, 128]⟩
abbrev S4096x128x32 : Shape := ⟨3, ![4096, 128, 32]⟩
abbrev S256x128 : Shape := ⟨2, ![256, 128]⟩
abbrev S256x128x32 : Shape := ⟨3, ![256, 128, 32]⟩
abbrev S256x128x1 : Shape := ⟨3, ![256, 128, 1]⟩
abbrev S4096x4096 : Shape := ⟨2, ![4096, 4096]⟩
abbrev S1024x1024 : Shape := ⟨2, ![1024, 1024]⟩

abbrev nBuf : Space → Nat
  | .hbm => 8
  | .vmem => 13
  | .smem => 0
  | _ => 0

abbrev bufTy : (tb : Table) → Fin (tcTables nBuf tb) → BufTy
  | .hbm, ⟨0, _⟩ => ⟨S2x2048x4096, .f32⟩
  | .hbm, ⟨1, _⟩ => ⟨S4096x128, .f32⟩
  | .hbm, ⟨2, _⟩ => ⟨S4096x128x32, .i32⟩
  | .hbm, ⟨3, _⟩ => ⟨S4096x128x32, .bf16⟩
  | .hbm, ⟨4, _⟩ => ⟨S4096x4096, .bf16⟩
  | .hbm, ⟨5, _⟩ => ⟨S4096x4096, .f32⟩
  | .hbm, ⟨6, _⟩ => ⟨S4096x4096, .f32⟩
  | .hbm, ⟨7, _⟩ => ⟨S2x2048x4096, .f32⟩
  | .local _ .vmem, ⟨0, _⟩ => ⟨S256x128, .f32⟩
  | .local _ .vmem, ⟨1, _⟩ => ⟨S256x128, .f32⟩
  | .local _ .vmem, ⟨2, _⟩ => ⟨S256x128x32, .i32⟩
  | .local _ .vmem, ⟨3, _⟩ => ⟨S256x128x32, .i32⟩
  | .local _ .vmem, ⟨4, _⟩ => ⟨S256x128x32, .bf16⟩
  | .local _ .vmem, ⟨5, _⟩ => ⟨S256x128x32, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S256x128x32_S256x128x32_0_0_0 : ∀ a, (![0, 0, 0] : Fin 3 → Nat) a + S256x128x32.size a ≤ S256x128x32.size a
  h_S256x128x32 : 0 < S256x128x32.numel
  inb_S256x128_S256x128_0_0 : ∀ a, (![0, 0] : Fin 2 → Nat) a + S256x128.size a ≤ S256x128.size a
  h_S256x128 : 0 < S256x128.numel
  shapeCasts_S256x128_S256x128x1 : S256x128.ShapeCasts S256x128x1
  broadcasts_S256x128x1_S256x128x32 : S256x128x1.Broadcasts S256x128x32
  bitsLt_bf16_f32 : FTy.bits .bf16 < FTy.bits .f32
  packedbf16_S256x128x32_S256x128x32_0_0_0 : (Rect.unit (s := S256x128x32) ![0, 0, 0] S256x128x32.size inb_S256x128x32_S256x128x32_0_0_0).PackedRows (EltTy.packing .bf16)
  shapeCasts_S4096x128x32_S4096x4096 : S4096x128x32.ShapeCasts S4096x4096
  shapeCasts_S2x2048x4096_S4096x4096 : S2x2048x4096.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x4096_S2x2048x4096 : S4096x4096.ShapeCasts S2x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x128.size a
  hwx0_0 : ∀ i : grid0.Coords, EltTy.bits .f32 = 32 ∨ (Rect.block (s := S4096x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128x32.size a ≤ S4096x128x32.size a
  hwx0_1 : ∀ i : grid0.Coords, EltTy.bits .i32 = 32 ∨ (Rect.block (s := S4096x128x32) S256x128x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128x32.size a ≤ S4096x128x32.size a
  hwx0_2 : ∀ i : grid0.Coords, EltTy.bits .bf16 = 32 ∨ (Rect.block (s := S4096x128x32) S256x128x32.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x128x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x128 : Shape := ⟨2, ![4096, 128]⟩
abbrev S4096x128x32 : Shape := ⟨3, ![4096, 128, 32]⟩
abbrev S_ : Shape := ⟨0, ![]⟩
abbrev S4096x128x1 : Shape := ⟨3, ![4096, 128, 1]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x128, .f32⟩
  | .hbm, ⟨2, _⟩ => ⟨S4096x128x32, .i32⟩
  | .hbm, ⟨3, _⟩ => ⟨S4096x128x32, .f32⟩
  | .hbm, ⟨4, _⟩ => ⟨S_, .f32⟩
  | .hbm, ⟨5, _⟩ => ⟨S4096x128x32, .f32⟩
  | .hbm, ⟨6, _⟩ => ⟨S4096x128x32, .f32⟩
  | .hbm, ⟨7, _⟩ => ⟨S4096x128x1, .f32⟩
  | .hbm, ⟨8, _⟩ => ⟨S4096x128x32, .f32⟩
  | .hbm, ⟨9, _⟩ => ⟨S4096x128x32, .f32⟩
  | .hbm, ⟨10, _⟩ => ⟨S4096x4096, .f32⟩
  | .hbm, ⟨11, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S4096x128x32 : S_.BroadcastsInDim S4096x128x32 (![] : Fin 0 → Fin S4096x128x32.rank)
  bcast_S4096x128_S4096x128x1_0_1 : S4096x128.BroadcastsInDim S4096x128x1 (![0, 1] : Fin 2 → Fin S4096x128x1.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Kernel.Region0.lean ====
/- Region 0, the dequantisation call, at a parameter `V` for the buffer contents the region is entered with.
   At grid point `t` the body reads the block of 256 rows of the scale table and of the code table and
   stores, over the whole output block, scale · (code − 128) narrowed to bf16; it keeps nothing between
   points.  Stated here: each window's block, the body's triple, the pipeline's proof data and the
   body obligation at every point. -/
import proofs.«149595_j5093831213493_1_alg».proof.Proof.Gen.Kernel.Launch
import proofs.«149595_j5093831213493_1_alg».proof.Proof.Gen.Kernel.Skeleton
import proofs.«149595_j5093831213493_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (the window is fetched whole,
    never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev rS : Rect S256x128 := Rect.unit (s := S256x128) ![0, 0] S256x128.size inb_S256x128_S256x128_0_0
abbrev rC : Rect S256x128x32 := Rect.unit (s := S256x128x32) ![0, 0, 0] S256x128x32.size inb_S256x128x32_S256x128x32_0_0_0

/-- What the body leaves in the output block, from the scale block `xs` and the code block `xc`:
    its one store over the whole block. -/
def out0_2 (xs : Vec F S256x128 .f32) (xc : Vec F S256x128x32 .i32) : Vec F S256x128x32 .bf16 :=
  View.canon [⟨rC, k0_pay1 (View.ld xc rC) (View.ld xs rS)⟩]

theorem cover0_2 (p0 : Vec F S256x128x32 .bf16) (y : S256x128x32.Idx) :
    ∃ pc ∈ ([⟨rC, p0⟩] : List (View.Piece (Elt F) S256x128x32 .bf16)), y ∈ pc.1.set :=
  View.cover_of_tiled [⟨rC, p0⟩] S256x128x32.size (by rfl) y

set_option maxHeartbeats 1000000 in
/-- The body on whole staging memrefs: the inputs come back as they were, the output holds `out0_2`. -/
theorem sound_kernel0 (c : Dev nD) (E : Set ℕ) (i : grid0.Coords)
    (arg1 : Memref sig .tc .vmem S256x128 .f32) (harg1 : arg1.IsWhole)
    (arg2 : Memref sig .tc .vmem S256x128x32 .i32) (harg2 : arg2.IsWhole)
    (arg3 : Memref sig .tc .vmem S256x128x32 .bf16) (harg3 : arg3.IsWhole)
    (xs : Vec F S256x128 .f32) (xc : Vec F S256x128x32 .i32) (K : PUnit → sProp 𝕄) :
    iprop(owns (c : Thread nD τ) arg1 fullShare xs ∗ owns (c : Thread nD τ) arg2 fullShare xc ∗ (∃ d, owns (c : Thread nD τ) arg3 fullShare d)
        ∗ (iprop(owns (c : Thread nD τ) arg1 fullShare xs ∗ owns (c : Thread nD τ) arg2 fullShare xc ∗ owns (c : Thread nD τ) arg3 fullShare (out0_2 xs xc)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each
    input's buffer at its block and the output's at `out0_2` of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.Region1.lean ====
/- Region 1, the tiled matrix product, at a parameter `V` for the buffer contents the region is entered with.
   The grid is 4 × 4 × 4 = 64 points (i, j, k), k fastest.  At a point the body adds to a 1024 × 1024
   accumulator, kept in a scratch buffer from point to point, the product of block (i, k) of the left
   operand (narrowed to bf16) with the transpose of block (j, k) of the right operand; at k = 0 it first
   zeroes the accumulator, at k = 3 it copies the accumulator into the output block (i, j).  At the other
   points the output's staging buffer is left as found and is not written back.
   Stated here: the accumulator after every point (`accAt`), the invariant that carries it, the body's
   triple in each of the three control cases, the proof data and the body obligation. -/
import proofs.«149595_j5093831213493_1_alg».proof.Proof.Gen.Kernel.Launch
import proofs.«149595_j5093831213493_1_alg».proof.Proof.Gen.Kernel.Skeleton
import proofs.«149595_j5093831213493_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, decided over the grid -/

/-- "k = 0": the accumulator is zeroed first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3": the accumulator is copied to the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The accumulator -/

abbrev rM : Rect S1024x1024 := Rect.unit (s := S1024x1024) ![0, 0] S1024x1024.size inb_S1024x1024_S1024x1024_0_0
theorem hzM : (![0, 0] : Fin S1024x1024.rank → Nat) = fun _ => 0 := funext fun a => by fin_cases a <;> rfl

/-- A store over the whole buffer, made last, is what the buffer then reads. -/
theorem read_writes_whole {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨⟨Rect.unit _ S.size inb, w⟩, List.mem_cons_self, by
    show y ∈ (Rect.whole S).set; rw [Rect.set_whole]; exact Finset.mem_univ y⟩), View.canon_cons_unit_zero rfl]

/-- The scratch operand: a whole scoped buffer of the kernel's own. -/
abbrev scM : Memref sig .tc .vmem S1024x1024 .f32 := Memref.whole cc1_scratch0

/-- THE ACCUMULATION: what the scratch buffer holds after the body at position `n`.  At a position with
    k = 0 the body's sum is taken over the zeroed accumulator, elsewhere over what the position before left. -/
def accAt (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

theorem accAt_reset (c : Dev nD) (t : Fin cfg1.N) (h0 : t.val % 4 = 0) :
    accAt V c t.val t.isLt = k1_pay2 (iblk1 V c 0 t) (iblk1 V c 1 t) (k1_pay1 (F := F)) := by
  obtain ⟨n, hn⟩ := t
  cases n with
  | zero => rfl
  | succ n => exact (if_pos h0).trans rfl

theorem accAt_step (c : Dev nD) (t : Fin cfg1.N) (h0 : ¬t.val % 4 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant between points -/

/-- The scoped buffers of the other call, which this region never touches. -/
def rest6 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class invariant opened: the other call's buffers, the scratch at some contents, the generator register. -/
theorem PhiA1_open (c : Dev nD) :
    (Pipeline.ΦA spec1 c : sProp 𝕄) ⊢ iprop(rest6 (F := F) c ∗ (∃ d, owns (c : Thread nD τ) scM fullShare d) ∗ (∃ r, prngReg c r)) := by
  unfold Pipeline.ΦA rest6; rw [scopedRest1_eq]; simp only [scM, owns_whole]
  iintro ⟨⟨S0, S1, S2, S3, S4, S5, HS⟩, Hg⟩
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [HS]; · iexact HS
  iexact Hg

theorem PhiA1_close (c : Dev nD) :
    iprop(rest6 (F := F) c ∗ (∃ d, owns (c : Thread nD τ) scM fullShare d) ∗ (∃ r, prngReg c r)) ⊢ (Pipeline.ΦA spec1 c : sProp 𝕄) := by
  unfold Pipeline.ΦA rest6; rw [scopedRest1_eq]; simp only [scM, owns_whole]
  iintro ⟨⟨S0, S1, S2, S3, S4, S5⟩, HS, Hg⟩
  isplitr [Hg]
  · isplitl [S0]; · iexact S0
    isplitl [S1]; · iexact S1
    isplitl [S2]; · iexact S2
    isplitl [S3]; · iexact S3
    isplitl [S4]; · iexact S4
    isplitl [S5]; · iexact S5
    iexact HS
  iexact Hg

/-- The region invariant before position `n`: before the first point the class's; afterwards the scratch at what
    the point before left in it, beside the untouched rest. -/
def PhiS (c : Dev nD) : (n : ℕ) → n ≤ cfg1.N → sProp 𝕄
  | 0, _ => Pipeline.ΦA spec1 c
  | n + 1, hn => iprop(rest6 (F := F) c ∗ owns (c : Thread nD τ) scM fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(rest6 (F := F) c ∗ owns (c : Thread nD τ) scM fullShare (accAt V c n hn) ∗ (∃ r, prngReg c r)) := rfl
theorem PhiS_pos (c : Dev nD) (n : ℕ) (h : n ≤ cfg1.N) (hz : n ≠ 0) :
    PhiS V c n h = iprop(rest6 (F := F) c ∗ owns (c : Thread nD τ) scM fullShare (accAt V c (n - 1) (by omega)) ∗ (∃ r, prngReg c r)) := by
  cases n with
  | zero => exact absurd rfl hz
  | succ n => rfl

/-! ## The body's triple, case by case -/

set_option maxHeartbeats 1000000 in
/-- k = 0: the accumulator is zeroed, then the block product added; the output buffer is not touched. -/
theorem sound_kernel1_A (c : Dev nD) (E : Set ℕ) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬ cond1_1 i)
    (x : Vec F S1024x1024 .f32) (w : Vec F S1024x1024 .bf16) (o : Vec F S1024x1024 .f32) (K : PUnit → sProp 𝕄) :
    iprop(owns (c : Thread nD τ) arg3 fullShare x ∗ owns (c : Thread nD τ) arg4 fullShare w ∗ owns (c : Thread nD τ) arg5 fullShare o
        ∗ (∃ d, owns (c : Thread nD τ) arg6 fullShare d)
        ∗ (iprop(owns (c : Thread nD τ) arg3 fullShare x ∗ owns (c : Thread nD τ) arg4 fullShare w ∗ owns (c : Thread nD τ) arg5 fullShare o
             ∗ owns (c : Thread nD τ) arg6 fullShare (k1_pay2 x w (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [read_writes_whole _ _ hzM]
  simp only [View.readAt_eq_ld, View.ld_unit_zero (S := S1024x1024) hzM, View.readCov_unit_zero (S := S1024x1024) _ hzM]

set_option maxHeartbeats 1000000 in
/-- 0 < k < 3: the block product is added to what the point before left; the output buffer is not touched. -/
theorem sound_kernel1_B (c : Dev nD) (E : Set ℕ) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬ cond1_0 i) (hc1 : ¬ cond1_1 i)
    (x : Vec F S1024x1024 .f32) (w : Vec F S1024x1024 .bf16) (o : Vec F S1024x1024 .f32) (a : Vec F S1024x1024 .f32) (K : PUnit → sProp 𝕄) :
    iprop(owns (c : Thread nD τ) arg3 fullShare x ∗ owns (c : Thread nD τ) arg4 fullShare w ∗ owns (c : Thread nD τ) arg5 fullShare o
        ∗ owns (c : Thread nD τ) arg6 fullShare a
        ∗ (iprop(owns (c : Thread nD τ) arg3 fullShare x ∗ owns (c : Thread nD τ) arg4 fullShare w ∗ owns (c : Thread nD τ) arg5 fullShare o
             ∗ owns (c : Thread nD τ) arg6 fullShare (k1_pay2 x w a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [read_writes_whole _ _ hzM]
  simp only [View.readAt_eq_ld, View.ld_unit_zero (S := S1024x1024) hzM, View.readCov_unit_zero (S := S1024x1024) _ hzM]

set_option maxHeartbeats 1000000 in
/-- k = 3: the block product is added to what the point before left, and the sum copied into the output buffer. -/
theorem sound_kernel1_C (c : Dev nD) (E : Set ℕ) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬ cond1_0 i) (hc1 : cond1_1 i)
    (x : Vec F S1024x1024 .f32) (w : Vec F S1024x1024 .bf16) (a : Vec F S1024x1024 .f32) (K : PUnit → sProp 𝕄) :
    iprop(owns (c : Thread nD τ) arg3 fullShare x ∗ owns (c : Thread nD τ) arg4 fullShare w ∗ (∃ d, owns (c : Thread nD τ) arg5 fullShare d)
        ∗ owns (c : Thread nD τ) arg6 fullShare a
        ∗ (iprop(owns (c : Thread nD τ) arg3 fullShare x ∗ owns (c : Thread nD τ) arg4 fullShare w ∗ owns (c : Thread nD τ) arg5 fullShare (k1_pay2 x w a)
             ∗ owns (c : Thread nD τ) arg6 fullShare (k1_pay2 x w a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_writes_whole _ _ hzM]
    simp only [View.readAt_eq_ld, View.ld_unit_zero (S := S1024x1024) hzM, View.readCov_unit_zero (S := S1024x1024) _ hzM]
  iexists _; isplitr
  swap; · iexact H3
  ipureintro
  sl_unfold_words
  rw [read_writes_whole _ _ hzM]
  simp only [View.readAt_eq_ld, View.ld_unit_zero (S := S1024x1024) hzM, View.readCov_unit_zero (S := S1024x1024) _ hzM]

end Region1

end Cert.Kernel.Hand

end
-- ==== Proof.Kernel.Region1Body.lean ====
/- Region 1, continued: the pipeline's proof data over the accumulator, and the body obligation at every
   point — by cases on k = the position mod 4: at k = 0 the body finds the scratch at anything (first point)
   or at the previous tile's sum and zeroes it; at 0 < k the scratch holds what the point before left; at
   k = 3 the output block receives the finished sum.  At k < 3 the output's buffer goes back as found. -/
import proofs.«149595_j5093831213493_1_alg».proof.Proof.Gen.Kernel.Launch
import proofs.«149595_j5093831213493_1_alg».proof.Proof.Gen.Kernel.Skeleton
import proofs.«149595_j5093831213493_1_alg».proof.Proof.Gen.Kernel.Points
import proofs.«149595_j5093831213493_1_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The proof data of pipeline 1 on core `c`: the arrays as the region finds them; after the body each input's
    buffer at its block and the output's at the accumulator (consulted only where k = 3); the invariant
    carries the scratch at the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem PhiS_castSucc (c : Dev nD) (t : Fin cfg1.N) :
    (dat1 V c).Φ t.castSucc = PhiS V c t.val (Nat.le_of_lt t.isLt) := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h1 : t.val % 4 = 3
  · have h0 : ¬ t.val % 4 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    rw [accAt_step V c t h0]
    rw [PhiS_castSucc V c t, PhiS_pos V c _ _ hz]
    iintro ⟨⟨HR, HS, Hg⟩, Ho, ⟨%d0, H0⟩, ⟨%d1, H1⟩, ⟨%d2, H2⟩⟩
    iapply (sound_kernel1_C c Set.univ _ _ _ _ _ _ _ _ _ (fun h => h0 ((hcond1_0 t).mp h)) ((hcond1_1 t).mpr h1) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [accAt_reset V c t h0]
      by_cases hz : t.val = 0
      · rw [PhiS_castSucc V c t, PhiS_zero V c _ _ hz]
        iintro ⟨HΦ, Ho, ⟨%d0, H0⟩, ⟨%d1, H1⟩, ⟨%d2, H2⟩⟩
        ihave HΦ' := (PhiA1_open (F := F) c) $$ HΦ
        icases HΦ' with ⟨HR, HS, Hg⟩
        iapply (sound_kernel1_A c Set.univ _ _ _ _ _ _ _ _ _ ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexact HS
        iintro ⟨H0, H1, H2, HS⟩
        isplitl [HR HS Hg]
        · isplitl [HR]; · iexact HR
          isplitl [HS]; · iexact HS
          iexact Hg
        isplitl [Ho]; · iexact Ho
        isplitl [H0]; · iexact H0
        isplitl [H1]; · iexact H1
        iexists _; iexact H2
      · rw [PhiS_castSucc V c t, PhiS_pos V c _ _ hz]
        iintro ⟨⟨HR, HS, Hg⟩, Ho, ⟨%d0, H0⟩, ⟨%d1, H1⟩, ⟨%d2, H2⟩⟩
        iapply (sound_kernel1_A c Set.univ _ _ _ _ _ _ _ _ _ ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexists _; iexact HS
        iintro ⟨H0, H1, H2, HS⟩
        isplitl [HR HS Hg]
        · isplitl [HR]; · iexact HR
          isplitl [HS]; · iexact HS
          iexact Hg
        isplitl [Ho]; · iexact Ho
        isplitl [H0]; · iexact H0
        isplitl [H1]; · iexact H1
        iexists _; iexact H2
    · have hz : t.val ≠ 0 := fun h => h0 (by rw [h])
      rw [accAt_step V c t h0]
      rw [PhiS_castSucc V c t, PhiS_pos V c _ _ hz]
      iintro ⟨⟨HR, HS, Hg⟩, Ho, ⟨%d0, H0⟩, ⟨%d1, H1⟩, ⟨%d2, H2⟩⟩
      iapply (sound_kernel1_B c Set.univ _ _ _ _ _ _ _ _ _ (fun h => h0 ((hcond1_0 t).mp h)) (fun h => h1 ((hcond1_1 t).mp h)) (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After the last point the invariant gives the class's back: the scratch's contents are forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  iintro ⟨HR, HS, Hg⟩
  iapply (PhiA1_close (F := F) c)
  isplitl [HR]; · iexact HR
  isplitl [HS]; · iexists _; iexact HS
  iexact Hg

end Region1

end Cert.Kernel.Hand

end
-- ==== Proof.Kernel.Run.lean ====
/- The run of the whole program: @main is the dequantisation call, two host reshapes, the matrix-product call
   and a last reshape.  The buffer contents at each boundary are a fold from the launch memory (`W0` … `W4`:
   a region's arrays at what its write-backs leave, a host stretch's results at the operations' values); each
   region is a segment entered from "every unscoped buffer at the boundary's contents, the generator register at
   some state, nothing owed" and left at the next boundary's; the launch theorem for a list of segments then
   gives: every weakly fair execution terminates, and every unscoped buffer ends at `W4`. -/
import proofs.«149595_j5093831213493_1_alg».proof.Proof.Gen.Kernel.Launch
import proofs.«149595_j5093831213493_1_alg».proof.Proof.Gen.Kernel.Skeleton
import proofs.«149595_j5093831213493_1_alg».proof.Proof.Gen.Kernel.Points
import proofs.«149595_j5093831213493_1_alg».proof.Proof.Gen.Kernel.Regions
import proofs.«149595_j5093831213493_1_alg».proof.Proof.Kernel.Region0
import proofs.«149595_j5093831213493_1_alg».proof.Proof.Kernel.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => m (c, b)
abbrev Ve0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- After the two reshapes (region 1's entry). -/
abbrev W2 : Dev nD → Valuation τ sig (Elt F) := fun c => StableHlo.after hostOps1 (W1 m c)
abbrev Ve2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (Ve2 m) c).arrAt w cfg1.N
theorem W3_arr (c : Dev nD) (w : Fin cfg1.W) :
    W3 m c (Proc.devRef .tc (Pipeline.arrRef spec1 w)) = (dat1 (Ve2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Ve3 : (c : Dev nD) → (b : Ref sig .tc) → Buf (Elt F) ((c : Thread nD τ).loc b) := fun c b => W3 m c b
theorem hF1 (c : Dev nD) (w : Fin cfg1.W) : (dat1 (Ve2 m) c).arrAt w cfg1.N = Ve3 m c (Pipeline.arrRef spec1 w) :=
  (W3_arr m c w).symm
theorem hrest1 (c : Dev nD) : ∀ b, b ∉ Finset.univ.image (Pipeline.arrRef spec1) → Ve3 m c b = Ve2 m c b :=
  fun b hb => W3_of_ne m c b fun w e => hb (Finset.mem_image.mpr ⟨w, Finset.mem_univ _, e⟩)

/-- After the last reshape: the contents the program ends with. -/
abbrev W4 : Dev nD → Valuation τ sig (Elt F) := fun c => StableHlo.after hostOps2 (W3 m c)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := W1_of_ne m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := (W1_arr m c 0).trans (((dat0 (Ve0 m) c).arrAt_in 0 rfl _).trans (A_eq0 (Ve0 m) c 0))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := StableHlo.after_of_writes_sub hostOps1 _ hostOps1_writes (r := main_arg2) (by decide)
    _ = W0 m c (Proc.devRef .tc main_arg2) := (W1_arr m c 1).trans (((dat0 (Ve0 m) c).arrAt_in 1 rfl _).trans (A_eq0 (Ve0 m) c 1))
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (Ix := Unit) (Name := ℕ) (U := UR sig nD τ) (Lvl := ℕ) (pcfgs (F := F) 1).pre c (fun _ => fullShare) (adm 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h1.trans (hin1 (Ve2 m) c)
  hout c := by
    rw [Pipeline.ownSems0_none]
    have h2 : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (Ve2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve2 m c) (Ve3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) :=
  main_segs adm (pdats m) () 𝒱₀ L lv _ _ (reg0 m) (reg1 m) rfl rfl c

set_option backward.isDefEq.respectTransparency.types false in
/-- THE RUN: from any memory with zero counters every weakly fair execution of @main terminates, nothing faulting,
    and every unscoped buffer of every core ends at the fold's last contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame claim's post, at any `F`: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_main m ρ)

end Cert.Kernel.Hand

end
-- ==== Proof.KernelIdeal.Region0.lean ====
/- Region 0, the dequantisation call, at a parameter `V` for the buffer contents the region is entered with.
   At grid point `t` the body reads the block of 256 rows of the scale table and of the code table and
   stores, over the whole output block, scale · (code − 128) narrowed to bf16; it keeps nothing between
   points.  Stated here: each window's block, the body's triple, the pipeline's proof data and the
   body obligation at every point. -/
import proofs.«149595_j5093831213493_1_alg».proof.Proof.Gen.KernelIdeal.Launch
import proofs.«149595_j5093831213493_1_alg».proof.Proof.Gen.KernelIdeal.Skeleton
import proofs.«149595_j5093831213493_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (the window is fetched whole,
    never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev rS : Rect S256x128 := Rect.unit (s := S256x128) ![0, 0] S256x128.size inb_S256x128_S256x128_0_0
abbrev rC : Rect S256x128x32 := Rect.unit (s := S256x128x32) ![0, 0, 0] S256x128x32.size inb_S256x128x32_S256x128x32_0_0_0

/-- What the body leaves in the output block, from the scale block `xs` and the code block `xc`:
    its one store over the whole block. -/
def out0_2 (xs : Vec F S256x128 .f32) (xc : Vec F S256x128x32 .i32) : Vec F S256x128x32 .bf16 :=
  View.canon [⟨rC, k0_pay1 (View.ld xc rC) (View.ld xs rS)⟩]

theorem cover0_2 (p0 : Vec F S256x128x32 .bf16) (y : S256x128x32.Idx) :
    ∃ pc ∈ ([⟨rC, p0⟩] : List (View.Piece (Elt F) S256x128x32 .bf16)), y ∈ pc.1.set :=
  View.cover_of_tiled [⟨rC, p0⟩] S256x128x32.size (by rfl) y

set_option maxHeartbeats 1000000 in
/-- The body on whole staging memrefs: the inputs come back as they were, the output holds `out0_2`. -/
theorem sound_kernel0 (c : Dev nD) (E : Set ℕ) (i : grid0.Coords)
    (arg1 : Memref sig .tc .vmem S256x128 .f32) (harg1 : arg1.IsWhole)
    (arg2 : Memref sig .tc .vmem S256x128x32 .i32) (harg2 : arg2.IsWhole)
    (arg3 : Memref sig .tc .vmem S256x128x32 .bf16) (harg3 : arg3.IsWhole)
    (xs : Vec F S256x128 .f32) (xc : Vec F S256x128x32 .i32) (K : PUnit → sProp 𝕄) :
    iprop(owns (c : Thread nD τ) arg1 fullShare xs ∗ owns (c : Thread nD τ) arg2 fullShare xc ∗ (∃ d, owns (c : Thread nD τ) arg3 fullShare d)
        ∗ (iprop(owns (c : Thread nD τ) arg1 fullShare xs ∗ owns (c : Thread nD τ) arg2 fullShare xc ∗ owns (c : Thread nD τ) arg3 fullShare (out0_2 xs xc)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each
    input's buffer at its block and the output's at `out0_2` of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.Region1.lean ====
/- Region 1, the tiled matrix product, at a parameter `V` for the buffer contents the region is entered with.
   The grid is 4 × 4 × 4 = 64 points (i, j, k), k fastest.  At a point the body adds to a 1024 × 1024
   accumulator, kept in a scratch buffer from point to point, the product of block (i, k) of the left
   operand (narrowed to bf16) with the transpose of block (j, k) of the right operand; at k = 0 it first
   zeroes the accumulator, at k = 3 it copies the accumulator into the output block (i, j).  At the other
   points the output's staging buffer is left as found and is not written back.
   Stated here: the accumulator after every point (`accAt`), the invariant that carries it, the body's
   triple in each of the three control cases, the proof data and the body obligation. -/
import proofs.«149595_j5093831213493_1_alg».proof.Proof.Gen.KernelIdeal.Launch
import proofs.«149595_j5093831213493_1_alg».proof.Proof.Gen.KernelIdeal.Skeleton
import proofs.«149595_j5093831213493_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, decided over the grid -/

/-- "k = 0": the accumulator is zeroed first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3": the accumulator is copied to the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The accumulator -/

abbrev rM : Rect S1024x1024 := Rect.unit (s := S1024x1024) ![0, 0] S1024x1024.size inb_S1024x1024_S1024x1024_0_0
theorem hzM : (![0, 0] : Fin S1024x1024.rank → Nat) = fun _ => 0 := funext fun a => by fin_cases a <;> rfl

/-- A store over the whole buffer, made last, is what the buffer then reads. -/
theorem read_writes_whole {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  subst h
  rw [View.read_writes_eq_canon _ _ _ (fun y => ⟨⟨Rect.unit _ S.size inb, w⟩, List.mem_cons_self, by
    show y ∈ (Rect.whole S).set; rw [Rect.set_whole]; exact Finset.mem_univ y⟩), View.canon_cons_unit_zero rfl]

/-- The scratch operand: a whole scoped buffer of the kernel's own. -/
abbrev scM : Memref sig .tc .vmem S1024x1024 .f32 := Memref.whole cc1_scratch0

/-- THE ACCUMULATION: what the scratch buffer holds after the body at position `n`.  At a position with
    k = 0 the body's sum is taken over the zeroed accumulator, elsewhere over what the position before left. -/
def accAt (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt c n (Nat.lt_of_succ_lt hn))

theorem accAt_reset (c : Dev nD) (t : Fin cfg1.N) (h0 : t.val % 4 = 0) :
    accAt V c t.val t.isLt = k1_pay2 (iblk1 V c 0 t) (iblk1 V c 1 t) (k1_pay1 (F := F)) := by
  obtain ⟨n, hn⟩ := t
  cases n with
  | zero => rfl
  | succ n => exact (if_pos h0).trans rfl

theorem accAt_step (c : Dev nD) (t : Fin cfg1.N) (h0 : ¬t.val % 4 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant between points -/

/-- The scoped buffers of the other call, which this region never touches. -/
def rest6 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class invariant opened: the other call's buffers, the scratch at some contents, the generator register. -/
theorem PhiA1_open (c : Dev nD) :
    (Pipeline.ΦA spec1 c : sProp 𝕄) ⊢ iprop(rest6 (F := F) c ∗ (∃ d, owns (c : Thread nD τ) scM fullShare d) ∗ (∃ r, prngReg c r)) := by
  unfold Pipeline.ΦA rest6; rw [scopedRest1_eq]; simp only [scM, owns_whole]
  iintro ⟨⟨S0, S1, S2, S3, S4, S5, HS⟩, Hg⟩
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [HS]; · iexact HS
  iexact Hg

theorem PhiA1_close (c : Dev nD) :
    iprop(rest6 (F := F) c ∗ (∃ d, owns (c : Thread nD τ) scM fullShare d) ∗ (∃ r, prngReg c r)) ⊢ (Pipeline.ΦA spec1 c : sProp 𝕄) := by
  unfold Pipeline.ΦA rest6; rw [scopedRest1_eq]; simp only [scM, owns_whole]
  iintro ⟨⟨S0, S1, S2, S3, S4, S5⟩, HS, Hg⟩
  isplitr [Hg]
  · isplitl [S0]; · iexact S0
    isplitl [S1]; · iexact S1
    isplitl [S2]; · iexact S2
    isplitl [S3]; · iexact S3
    isplitl [S4]; · iexact S4
    isplitl [S5]; · iexact S5
    iexact HS
  iexact Hg

/-- The region invariant before position `n`: before the first point the class's; afterwards the scratch at what
    the point before left in it, beside the untouched rest. -/
def PhiS (c : Dev nD) : (n : ℕ) → n ≤ cfg1.N → sProp 𝕄
  | 0, _ => Pipeline.ΦA spec1 c
  | n + 1, hn => iprop(rest6 (F := F) c ∗ owns (c : Thread nD τ) scM fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(rest6 (F := F) c ∗ owns (c : Thread nD τ) scM fullShare (accAt V c n hn) ∗ (∃ r, prngReg c r)) := rfl
theorem PhiS_pos (c : Dev nD) (n : ℕ) (h : n ≤ cfg1.N) (hz : n ≠ 0) :
    PhiS V c n h = iprop(rest6 (F := F) c ∗ owns (c : Thread nD τ) scM fullShare (accAt V c (n - 1) (by omega)) ∗ (∃ r, prngReg c r)) := by
  cases n with
  | zero => exact absurd rfl hz
  | succ n => rfl

/-! ## The body's triple, case by case -/

set_option maxHeartbeats 1000000 in
/-- k = 0: the accumulator is zeroed, then the block product added; the output buffer is not touched. -/
theorem sound_kernel1_A (c : Dev nD) (E : Set ℕ) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬ cond1_1 i)
    (x : Vec F S1024x1024 .f32) (w : Vec F S1024x1024 .bf16) (o : Vec F S1024x1024 .f32) (K : PUnit → sProp 𝕄) :
    iprop(owns (c : Thread nD τ) arg3 fullShare x ∗ owns (c : Thread nD τ) arg4 fullShare w ∗ owns (c : Thread nD τ) arg5 fullShare o
        ∗ (∃ d, owns (c : Thread nD τ) arg6 fullShare d)
        ∗ (iprop(owns (c : Thread nD τ) arg3 fullShare x ∗ owns (c : Thread nD τ) arg4 fullShare w ∗ owns (c : Thread nD τ) arg5 fullShare o
             ∗ owns (c : Thread nD τ) arg6 fullShare (k1_pay2 x w (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [read_writes_whole _ _ hzM]
  simp only [View.readAt_eq_ld, View.ld_unit_zero (S := S1024x1024) hzM, View.readCov_unit_zero (S := S1024x1024) _ hzM]

set_option maxHeartbeats 1000000 in
/-- 0 < k < 3: the block product is added to what the point before left; the output buffer is not touched. -/
theorem sound_kernel1_B (c : Dev nD) (E : Set ℕ) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬ cond1_0 i) (hc1 : ¬ cond1_1 i)
    (x : Vec F S1024x1024 .f32) (w : Vec F S1024x1024 .bf16) (o : Vec F S1024x1024 .f32) (a : Vec F S1024x1024 .f32) (K : PUnit → sProp 𝕄) :
    iprop(owns (c : Thread nD τ) arg3 fullShare x ∗ owns (c : Thread nD τ) arg4 fullShare w ∗ owns (c : Thread nD τ) arg5 fullShare o
        ∗ owns (c : Thread nD τ) arg6 fullShare a
        ∗ (iprop(owns (c : Thread nD τ) arg3 fullShare x ∗ owns (c : Thread nD τ) arg4 fullShare w ∗ owns (c : Thread nD τ) arg5 fullShare o
             ∗ owns (c : Thread nD τ) arg6 fullShare (k1_pay2 x w a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [read_writes_whole _ _ hzM]
  simp only [View.readAt_eq_ld, View.ld_unit_zero (S := S1024x1024) hzM, View.readCov_unit_zero (S := S1024x1024) _ hzM]

set_option maxHeartbeats 1000000 in
/-- k = 3: the block product is added to what the point before left, and the sum copied into the output buffer. -/
theorem sound_kernel1_C (c : Dev nD) (E : Set ℕ) (i : grid1.Coords)
    (arg3 : Memref sig .tc .vmem S1024x1024 .f32) (harg3 : arg3.IsWhole)
    (arg4 : Memref sig .tc .vmem S1024x1024 .bf16) (harg4 : arg4.IsWhole)
    (arg5 : Memref sig .tc .vmem S1024x1024 .f32) (harg5 : arg5.IsWhole)
    (arg6 : Memref sig .tc .vmem S1024x1024 .f32) (harg6 : arg6.IsWhole)
    (hc0 : ¬ cond1_0 i) (hc1 : cond1_1 i)
    (x : Vec F S1024x1024 .f32) (w : Vec F S1024x1024 .bf16) (a : Vec F S1024x1024 .f32) (K : PUnit → sProp 𝕄) :
    iprop(owns (c : Thread nD τ) arg3 fullShare x ∗ owns (c : Thread nD τ) arg4 fullShare w ∗ (∃ d, owns (c : Thread nD τ) arg5 fullShare d)
        ∗ owns (c : Thread nD τ) arg6 fullShare a
        ∗ (iprop(owns (c : Thread nD τ) arg3 fullShare x ∗ owns (c : Thread nD τ) arg4 fullShare w ∗ owns (c : Thread nD τ) arg5 fullShare (k1_pay2 x w a)
             ∗ owns (c : Thread nD τ) arg6 fullShare (k1_pay2 x w a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_writes_whole _ _ hzM]
    simp only [View.readAt_eq_ld, View.ld_unit_zero (S := S1024x1024) hzM, View.readCov_unit_zero (S := S1024x1024) _ hzM]
  iexists _; isplitr
  swap; · iexact H3
  ipureintro
  sl_unfold_words
  rw [read_writes_whole _ _ hzM]
  simp only [View.readAt_eq_ld, View.ld_unit_zero (S := S1024x1024) hzM, View.readCov_unit_zero (S := S1024x1024) _ hzM]

end Region1

end Cert.KernelIdeal.Hand

end
-- ==== Proof.KernelIdeal.Region1Body.lean ====
/- Region 1, continued: the pipeline's proof data over the accumulator, and the body obligation at every
   point — by cases on k = the position mod 4: at k = 0 the body finds the scratch at anything (first point)
   or at the previous tile's sum and zeroes it; at 0 < k the scratch holds what the point before left; at
   k = 3 the output block receives the finished sum.  At k < 3 the output's buffer goes back as found. -/
import proofs.«149595_j5093831213493_1_alg».proof.Proof.Gen.KernelIdeal.Launch
import proofs.«149595_j5093831213493_1_alg».proof.Proof.Gen.KernelIdeal.Skeleton
import proofs.«149595_j5093831213493_1_alg».proof.Proof.Gen.KernelIdeal.Points
import proofs.«149595_j5093831213493_1_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The proof data of pipeline 1 on core `c`: the arrays as the region finds them; after the body each input's
    buffer at its block and the output's at the accumulator (consulted only where k = 3); the invariant
    carries the scratch at the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem PhiS_castSucc (c : Dev nD) (t : Fin cfg1.N) :
    (dat1 V c).Φ t.castSucc = PhiS V c t.val (Nat.le_of_lt t.isLt) := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h1 : t.val % 4 = 3
  · have h0 : ¬ t.val % 4 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    rw [accAt_step V c t h0]
    rw [PhiS_castSucc V c t, PhiS_pos V c _ _ hz]
    iintro ⟨⟨HR, HS, Hg⟩, Ho, ⟨%d0, H0⟩, ⟨%d1, H1⟩, ⟨%d2, H2⟩⟩
    iapply (sound_kernel1_C c Set.univ _ _ _ _ _ _ _ _ _ (fun h => h0 ((hcond1_0 t).mp h)) ((hcond1_1 t).mpr h1) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [accAt_reset V c t h0]
      by_cases hz : t.val = 0
      · rw [PhiS_castSucc V c t, PhiS_zero V c _ _ hz]
        iintro ⟨HΦ, Ho, ⟨%d0, H0⟩, ⟨%d1, H1⟩, ⟨%d2, H2⟩⟩
        ihave HΦ' := (PhiA1_open (F := F) c) $$ HΦ
        icases HΦ' with ⟨HR, HS, Hg⟩
        iapply (sound_kernel1_A c Set.univ _ _ _ _ _ _ _ _ _ ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexact HS
        iintro ⟨H0, H1, H2, HS⟩
        isplitl [HR HS Hg]
        · isplitl [HR]; · iexact HR
          isplitl [HS]; · iexact HS
          iexact Hg
        isplitl [Ho]; · iexact Ho
        isplitl [H0]; · iexact H0
        isplitl [H1]; · iexact H1
        iexists _; iexact H2
      · rw [PhiS_castSucc V c t, PhiS_pos V c _ _ hz]
        iintro ⟨⟨HR, HS, Hg⟩, Ho, ⟨%d0, H0⟩, ⟨%d1, H1⟩, ⟨%d2, H2⟩⟩
        iapply (sound_kernel1_A c Set.univ _ _ _ _ _ _ _ _ _ ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexists _; iexact HS
        iintro ⟨H0, H1, H2, HS⟩
        isplitl [HR HS Hg]
        · isplitl [HR]; · iexact HR
          isplitl [HS]; · iexact HS
          iexact Hg
        isplitl [Ho]; · iexact Ho
        isplitl [H0]; · iexact H0
        isplitl [H1]; · iexact H1
        iexists _; iexact H2
    · have hz : t.val ≠ 0 := fun h => h0 (by rw [h])
      rw [accAt_step V c t h0]
      rw [PhiS_castSucc V c t, PhiS_pos V c _ _ hz]
      iintro ⟨⟨HR, HS, Hg⟩, Ho, ⟨%d0, H0⟩, ⟨%d1, H1⟩, ⟨%d2, H2⟩⟩
      iapply (sound_kernel1_B c Set.univ _ _ _ _ _ _ _ _ _ (fun h => h0 ((hcond1_0 t).mp h)) (fun h => h1 ((hcond1_1 t).mp h)) (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After the last point the invariant gives the class's back: the scratch's contents are forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  iintro ⟨HR, HS, Hg⟩
  iapply (PhiA1_close (F := F) c)
  isplitl [HR]; · iexact HR
  isplitl [HS]; · iexists _; iexact HS
  iexact Hg

end Region1

end Cert.KernelIdeal.Hand

end
-- ==== Proof.KernelIdeal.Run.lean ====
/- The run of the whole program: @main is the dequantisation call, two host reshapes, the matrix-product call
   and a last reshape.  The buffer contents at each boundary are a fold from the launch memory (`W0` … `W4`:
   a region's arrays at what its write-backs leave, a host stretch's results at the operations' values); each
   region is a segment entered from "every unscoped buffer at the boundary's contents, the generator register at
   some state, nothing owed" and left at the next boundary's; the launch theorem for a list of segments then
   gives: every weakly fair execution terminates, and every unscoped buffer ends at `W4`. -/
import proofs.«149595_j5093831213493_1_alg».proof.Proof.Gen.KernelIdeal.Launch
import proofs.«149595_j5093831213493_1_alg».proof.Proof.Gen.KernelIdeal.Skeleton
import proofs.«149595_j5093831213493_1_alg».proof.Proof.Gen.KernelIdeal.Points
import proofs.«149595_j5093831213493_1_alg».proof.Proof.Gen.KernelIdeal.Regions
import proofs.«149595_j5093831213493_1_alg».proof.Proof.KernelIdeal.Region0
import proofs.«149595_j5093831213493_1_alg».proof.Proof.KernelIdeal.Region1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => m (c, b)
abbrev Ve0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Ve1 : (c : Dev nD) → (b : Ref sig .tc) → Buf (Elt F) ((c : Thread nD τ).loc b) := fun c b => W1 m c b
theorem hF0 (c : Dev nD) (w : Fin cfg0.W) : (dat0 (Ve0 m) c).arrAt w cfg0.N = Ve1 m c (Pipeline.arrRef spec0 w) :=
  (W1_arr m c w).symm
theorem hrest0 (c : Dev nD) : ∀ b, b ∉ Finset.univ.image (Pipeline.arrRef spec0) → Ve1 m c b = Ve0 m c b :=
  fun b hb => W1_of_ne m c b fun w e => hb (Finset.mem_image.mpr ⟨w, Finset.mem_univ _, e⟩)

/-- After the two reshapes (region 1's entry). -/
abbrev W2 : Dev nD → Valuation τ sig (Elt F) := fun c => StableHlo.after hostOps1 (W1 m c)
abbrev Ve2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (Ve2 m) c).arrAt w cfg1.N
theorem W3_arr (c : Dev nD) (w : Fin cfg1.W) :
    W3 m c (Proc.devRef .tc (Pipeline.arrRef spec1 w)) = (dat1 (Ve2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Ve3 : (c : Dev nD) → (b : Ref sig .tc) → Buf (Elt F) ((c : Thread nD τ).loc b) := fun c b => W3 m c b
theorem hF1 (c : Dev nD) (w : Fin cfg1.W) : (dat1 (Ve2 m) c).arrAt w cfg1.N = Ve3 m c (Pipeline.arrRef spec1 w) :=
  (W3_arr m c w).symm
theorem hrest1 (c : Dev nD) : ∀ b, b ∉ Finset.univ.image (Pipeline.arrRef spec1) → Ve3 m c b = Ve2 m c b :=
  fun b hb => W3_of_ne m c b fun w e => hb (Finset.mem_image.mpr ⟨w, Finset.mem_univ _, e⟩)

/-- After the last reshape: the contents the program ends with. -/
abbrev W4 : Dev nD → Valuation τ sig (Elt F) := fun c => StableHlo.after hostOps2 (W3 m c)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := W1_of_ne m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := (W1_arr m c 0).trans (((dat0 (Ve0 m) c).arrAt_in 0 rfl _).trans (A_eq0 (Ve0 m) c 0))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := StableHlo.after_of_writes_sub hostOps1 _ hostOps1_writes (r := main_arg2) (by decide)
    _ = W0 m c (Proc.devRef .tc main_arg2) := (W1_arr m c 1).trans (((dat0 (Ve0 m) c).arrAt_in 1 rfl _).trans (A_eq0 (Ve0 m) c 1))
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (Ix := Unit) (Name := ℕ) (U := UR sig nD τ) (Lvl := ℕ) (pcfgs (F := F) 1).pre c (fun _ => fullShare) (adm 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h1.trans (hin1 (Ve2 m) c)
  hout c := by
    rw [Pipeline.ownSems0_none]
    have h2 : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (Ve2 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve2 m c) (Ve3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) :=
  main_segs adm (pdats m) () 𝒱₀ L lv _ _ (reg0 m) (reg1 m) rfl rfl c

set_option backward.isDefEq.respectTransparency.types false in
/-- THE RUN: from any memory with zero counters every weakly fair execution of @main terminates, nothing faulting,
    and every unscoped buffer of every core ends at the fold's last contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame claim's post, at any `F`: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_main m ρ)

end Cert.KernelIdeal.Hand

end
-- ==== Proof.Spec.lean ====
/- The mathematics both programs compute, stated once over literal shapes and importing no program.
   The weight matrix is stored as 4096 rows of 128 blocks of 32 integer codes, each block with one scale:
   weight (o, i) = scale (o, i / 32) · (code (o, i / 32, i mod 32) − 128).  The result is the product of the
   4096 × 4096 rows of x with the transpose of that matrix:  y (b, s, o) = Σ_i x (b, s, i) · weight (o, i).
   Also here: a sum over 4096 terms taken tile by tile (four tiles of 1024, added one after the other to zero)
   is the whole sum — addition of extended reals is commutative and associative, so no finiteness is needed. -/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

abbrev SX : Shape := ⟨3, ![2, 2048, 4096]⟩
abbrev SS : Shape := ⟨2, ![4096, 128]⟩
abbrev SC : Shape := ⟨3, ![4096, 128, 32]⟩
abbrev SM : Shape := ⟨2, ![4096, 4096]⟩

/-- One dequantised weight: the block's scale times the signed code. -/
def wElt (s : Ideal .f32) (cd : BitVec 32) : Ideal .f32 :=
  s * (FloatOps.sitofp (F := Ideal) .f32 cd - Ideal.ofBits .f32 0x43000000#32)

/-- The dequantised weights as stored, 4096 × 128 × 32. -/
def wq3 (s : SS.Idx → Ideal .f32) (cd : SC.Idx → BitVec 32) : SC.Idx → Ideal .f32 :=
  fun y => wElt (s (ix2 (y 0) (y 1))) (cd y)

theorem blk_lt (i : Fin 4096) : i.val / 32 < 128 := by have := i.isLt; omega
theorem lane_lt (i : Fin 4096) : i.val % 32 < 32 := Nat.mod_lt _ (by decide)

/-- The weight matrix, row `o`, column `i`: block `i / 32`, lane `i mod 32`. -/
def wq (s : SS.Idx → Ideal .f32) (cd : SC.Idx → BitVec 32) (o i : Fin 4096) : Ideal .f32 :=
  wq3 s cd (ix3 o ⟨i.val / 32, blk_lt i⟩ ⟨i.val % 32, lane_lt i⟩)

/-- The result, index by index. -/
def G (x : SX.Idx → Ideal .f32) (s : SS.Idx → Ideal .f32) (cd : SC.Idx → BitVec 32) : SX.Idx → Ideal .f32 :=
  fun y => ∑ i : Fin 4096, x (ix3 (y 0) (y 1) i) * wq s cd (y 2) i

theorem tile_lt (k : Fin 4) (kk : Fin 1024) : 1024 * k.val + kk.val < 4096 := by
  have := k.isLt; have := kk.isLt; omega

/-- Column `kk` of tile `k`. -/
def tcol (k : Fin 4) (kk : Fin 1024) : Fin 4096 := ⟨1024 * k.val + kk.val, tile_lt k kk⟩

/-- A sum over the 4096 columns is the sum over the four tiles of the sums over each tile's 1024 columns. -/
theorem sum_tiles {M : Type*} [AddCommMonoid M] (f : Fin 4096 → M) :
    ∑ i : Fin 4096, f i = ∑ k : Fin 4, ∑ kk : Fin 1024, f (tcol k kk) := by
  -- The pairs (tile, column in tile) are in bijection with the 4096 columns by (k, kk) ↦ kk + 1024 · k;
  -- re-index the sum along it and split the sum over pairs into the double sum.
  refine ((Equiv.sum_comp (finProdFinEquiv (m := 4) (n := 1024)) f).symm.trans ?_)
  rw [Fintype.sum_prod_type]
  refine Finset.sum_congr rfl fun k _ => Finset.sum_congr rfl fun kk _ => ?_
  refine congrArg f (Fin.ext ?_)
  show kk.val + 1024 * k.val = 1024 * k.val + kk.val
  omega

/-- The kernel's order of addition: the four tile sums added one after the other to zero. -/
theorem sum_tiles_acc {M : Type*} [AddCommMonoid M] (f : Fin 4096 → M) :
    ((((0 + ∑ kk : Fin 1024, f (tcol 0 kk)) + ∑ kk : Fin 1024, f (tcol 1 kk)) + ∑ kk : Fin 1024, f (tcol 2 kk))
      + ∑ kk : Fin 1024, f (tcol 3 kk)) = ∑ i : Fin 4096, f i := by
  rw [sum_tiles f, Fin.sum_univ_four, zero_add]

end Cert.Spec

end
-- ==== Proof.KernelIdeal.ValR0.lean ====
/- The dequantised weights as region 0 leaves them: block t of the output array is rows 256 t … 256 t + 255, and
   every element of it is its block's scale times the signed code, so the whole array is that, index by index. -/
import proofs.«149595_j5093831213493_1_alg».proof.Proof.KernelIdeal.Region0
import proofs.«149595_j5093831213493_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The zero offsets of a whole-block rectangle, however they are spelt. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The scale block, given a trailing unit axis and repeated along the 32 lanes, read at (p, q, l) is the
    scale at (p, q): the lane coordinate is dropped, and (p, q) and (p, q, 0) have the same row-major position. -/
theorem scale_lanes_apply (xs : Vec Ideal S256x128 .f32) (p : Fin 256) (q : Fin 128) (l : Fin 32) :
    broadcastTo S256x128x32 (shapeCast S256x128x1 xs shapeCasts_S256x128_S256x128x1) broadcasts_S256x128x1_S256x128x32 (ix3 p q l)
      = xs (ix2 p q) := by
  refine (broadcastTo_apply _ _ (ix3 p q l) (ix3 p q (0 : Fin 1)) ?_).trans ?_
  · intro a
    match a with
    | ⟨0, _⟩ => rfl
    | ⟨1, _⟩ => rfl
    | ⟨2, _⟩ => rfl
  · refine shapeCast_apply _ _ _ (ix2 p q) ?_
    rw [Shape.rowMajor_val_two, Shape.rowMajor_val_three]
    show p.val * 128 + q.val = (p.val * 128 + q.val) * 1 + 0
    omega

/-- The body's payload, element by element: the scale of the element's block of 32 times the signed code
    (narrowing to bf16 changes nothing over the extended reals). -/
theorem pay_apply (xc : Vec Ideal S256x128x32 .i32) (xs : Vec Ideal S256x128 .f32) (p : Fin 256) (q : Fin 128) (l : Fin 32) :
    k0_pay1 (F := Ideal) xc xs (ix3 p q l) = Cert.Spec.wElt (xs (ix2 p q)) (xc (ix3 p q l)) := by
  unfold k0_pay1 Cert.Spec.wElt
  show broadcastTo S256x128x32 (shapeCast S256x128x1 xs shapeCasts_S256x128_S256x128x1) broadcasts_S256x128x1_S256x128x32 (ix3 p q l) * _ = _
  rw [scale_lanes_apply]
  rfl

/-- The dequantised weights as one function of the scale table and the code table, index by index. -/
def deq (s : S4096x128.Idx → Ideal .f32) (cd : S4096x128x32.Idx → BitVec 32) : S4096x128x32.Idx → Ideal .bf16 :=
  fun y => Cert.Spec.wElt (s (ix2 (y 0) (y 1))) (cd y)

/-- The three index maps over the 16 points: block t of every window starts at row 256 t, at zero on the
    other axes. -/
theorem index_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Element (p, q, l) of what point t stores is the dequantised weight at that element's place in the array:
    the scale block's (p, q) and the code block's (p, q, l) sit at rows 256 t + p of their tables. -/
theorem stored_apply (c : Dev nD) (t : Fin cfg0.N) (y : S256x128x32.Idx) :
    k0_pay1 (F := Ideal) (iblk0 V c 1 t) (iblk0 V c 0 t) y
      = deq (V c main_arg1) (V c main_arg2) (((cfg0.win 2).blk t).view.emb y) := by
  obtain ⟨p, q, l, rfl⟩ : ∃ (p : Fin 256) (q : Fin 128) (l : Fin 32), y = ix3 p q l := ⟨y 0, y 1, y 2, eq_ix3 y⟩
  rw [pay_apply]
  obtain ⟨a0, a1, b0, b1, b2, o0, o1, o2⟩ := index_facts t
  have hp : p.val < 256 := p.isLt
  have hq : q.val < 128 := q.isLt
  have hl : l.val < 32 := l.isLt
  show Cert.Spec.wElt (V c main_arg1 (((cfg0.win 0).blk t).view.emb (ix2 p q))) (V c main_arg2 (((cfg0.win 1).blk t).view.emb (ix3 p q l)))
    = Cert.Spec.wElt (V c main_arg1 (ix2 ((((cfg0.win 2).blk t).view.emb (ix3 p q l)) 0) ((((cfg0.win 2).blk t).view.emb (ix3 p q l)) 1)))
        (V c main_arg2 (((cfg0.win 2).blk t).view.emb (ix3 p q l)))
  have hs : ((cfg0.win 0).blk t).view.emb (ix2 p q)
      = ix2 ((((cfg0.win 2).blk t).view.emb (ix3 p q l)) 0) ((((cfg0.win 2).blk t).view.emb (ix3 p q l)) 1) := by
    funext a; apply Fin.ext
    match a with
    | ⟨0, _⟩ => show win0_0.index t (0 : Fin 2) * 256 + 1 * p.val = win0_2.index t (0 : Fin 3) * 256 + 1 * p.val; omega
    | ⟨1, _⟩ => show win0_0.index t (1 : Fin 2) * 128 + 1 * q.val = win0_2.index t (1 : Fin 3) * 128 + 1 * q.val; omega
  have hc : ((cfg0.win 1).blk t).view.emb (ix3 p q l) = ((cfg0.win 2).blk t).view.emb (ix3 p q l) := by
    funext a; apply Fin.ext
    match a with
    | ⟨0, _⟩ => show win0_1.index t (0 : Fin 3) * 256 + 1 * p.val = win0_2.index t (0 : Fin 3) * 256 + 1 * p.val; omega
    | ⟨1, _⟩ => show win0_1.index t (1 : Fin 3) * 128 + 1 * q.val = win0_2.index t (1 : Fin 3) * 128 + 1 * q.val; omega
    | ⟨2, _⟩ => show win0_1.index t (2 : Fin 3) * 32 + 1 * l.val = win0_2.index t (2 : Fin 3) * 32 + 1 * l.val; omega
  rw [hs, hc]
  rfl

/-- What point t writes back is block t of the dequantised weights. -/
theorem flushed_eq (c : Dev nD) (t : Fin cfg0.N) :
    (dat0 (F := Ideal) V c).flushed 2 t
      = ((cfg0.win 2).blk t).view.read (Elt Ideal) (deq (V c main_arg1) (V c main_arg2)) := by
  show (cfg0.win 2).cut (grid0.coords t) ((dat0 (F := Ideal) V c).after 2 t) = _
  rw [after0_2]
  unfold out0_2
  rw [View.canon_unit_zero zeros3]
  simp only [View.ld_unit_zero (S := S256x128x32) zeros3, View.ld_unit_zero (S := S256x128) zeros2]
  funext y
  exact stored_apply V c t y

/-- An index of the array is in point t's block iff each coordinate is in the block's range on its axis. -/
theorem mem_blk (t : Fin cfg0.N) (i : S4096x128x32.Idx) :
    i ∈ ((cfg0.win 2).blk t).view.set ↔ ∀ a : Fin 3, win0_2.index t a * S256x128x32.size a ≤ (i a).val
      ∧ (i a).val < win0_2.index t a * S256x128x32.size a + S256x128x32.size a := by
  show i ∈ ((View.whole main_v0).slice (win0_2.rect t)).set ↔ _
  rw [View.set_slice_whole, Rect.mem_set_unit]
  exact Iff.rfl

/-- Every index of the array is in some point's block: row r is in block r / 256, and a block spans the
    other two axes whole. -/
theorem covered (i : S4096x128x32.Idx) :
    ∃ t : Fin cfg0.N, (cfg0.win 2).flush t = true ∧ i ∈ ((cfg0.win 2).blk t).view.set := by
  have h0 : (i 0).val < 4096 := (i 0).isLt
  have h1 : (i 1).val < 128 := (i 1).isLt
  have h2 : (i 2).val < 32 := (i 2).isLt
  obtain ⟨t, ht⟩ : ∃ t : Fin cfg0.N, t.val = (i 0).val / 256 :=
    ⟨⟨(i 0).val / 256, by show (i 0).val / 256 < 16; omega⟩, rfl⟩
  obtain ⟨-, -, -, -, -, o0, o1, o2⟩ := index_facts t
  refine ⟨t, flush0_2 t, ?_⟩
  rw [mem_blk]
  intro a
  match a with
  | ⟨0, _⟩ => show win0_2.index t (0 : Fin 3) * 256 ≤ (i 0).val ∧ (i 0).val < win0_2.index t (0 : Fin 3) * 256 + 256; omega
  | ⟨1, _⟩ => show win0_2.index t (1 : Fin 3) * 128 ≤ (i 1).val ∧ (i 1).val < win0_2.index t (1 : Fin 3) * 128 + 128; omega
  | ⟨2, _⟩ => show win0_2.index t (2 : Fin 3) * 32 ≤ (i 2).val ∧ (i 2).val < win0_2.index t (2 : Fin 3) * 32 + 32; omega

/-- The output array after all 16 points is the dequantised weights, whole. -/
theorem final0 (c : Dev nD) :
    (dat0 (F := Ideal) V c).arrAt 2 cfg0.N = deq (V c main_arg1) (V c main_arg2) :=
  (dat0 (F := Ideal) V c).arrAt_eq_of_cover 2 (deq (V c main_arg1) (V c main_arg2)) (fun t _ => flushed_eq V c t) covered

/-- Region 0's output array after all 16 points: the dequantised weight at every index. -/
theorem final0_apply (c : Dev nD) (o : Fin 4096) (b : Fin 128) (j : Fin 32) :
    (dat0 (F := Ideal) V c).arrAt 2 cfg0.N (ix3 o b j) = Cert.Spec.wElt (V c main_arg1 (ix2 o b)) (V c main_arg2 (ix3 o b j)) :=
  congrFun (final0 V c) (ix3 o b j)

end Cert.KernelIdeal.Val

end
-- ==== Proof.KernelIdeal.ValR1A.lean ====
/- Region 1's arithmetic at one element: the body's sum is the accumulator plus the dot product of a row of the
   left block with a row of the right block (the product is taken against the transpose); the reset value is zero;
   and where in the 4096 × 4096 operands the blocks of grid point t = 16 i + 4 j + k lie. -/
import proofs.«149595_j5093831213493_1_alg».proof.Proof.KernelIdeal.Region1
import proofs.«149595_j5093831213493_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The reset value is zero everywhere: a broadcast of the zero word, whose ideal value is the real number zero. -/
theorem pay1_apply (y : S1024x1024.Idx) : k1_pay1 (F := Ideal) y = 0 := by
  unfold k1_pay1
  refine (congrFun (shapeCast_self _ _) y).trans ?_
  show Ideal.ofBits .f32 0x00000000#32 = 0
  exact Ideal.ofBits_zero_f32

/-! The product's dimension numbers contract axis 1 of both operands: at output index (p, q) and contraction
    position k the left operand is read at (p, k) and the right one at (q, k). -/

theorem lhs_dot1_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_dot1_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_dot1_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_dot1_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- The block product over a zero accumulator at row `p`, column `q`: row `p` of the left operand against
    row `q` of the right one. -/
theorem matmul1_apply (lhs rhs : FVec Ideal S1024x1024 .bf16) (p q : Fin 1024) :
    matmul dot_S1024x1024_S1024x1024_S1024x1024_1_1_0_0_n_n none lhs rhs (constant (F := Ideal) S1024x1024 .f32 0x00000000#32) (ix2 p q)
      = ∑ kk : Fin 1024, lhs (ix2 p kk) * rhs (ix2 q kk) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_dot1_0 _ _
    | ⟨1, _⟩ => exact (lhs_dot1_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_dot1_0 _ _
    | ⟨1, _⟩ => exact (rhs_dot1_1 _ _).trans hk)
  rw [el, er]

/-- The body's sum at row `p`, column `q` of the block: the narrowing to bf16 changes no ideal value, and the
    same-shape casts are the identity. -/
theorem pay2_apply (x : Vec Ideal S1024x1024 .f32) (w : Vec Ideal S1024x1024 .bf16) (a : Vec Ideal S1024x1024 .f32) (p q : Fin 1024) :
    k1_pay2 (F := Ideal) x w a (ix2 p q) = a (ix2 p q) + ∑ kk : Fin 1024, x (ix2 p kk) * w (ix2 q kk) := by
  unfold k1_pay2
  simp only [shapeCast_self]
  refine (addf_apply _ _ _).trans ?_
  refine congrArg (a (ix2 p q) + ·) ?_
  exact matmul1_apply (truncf .bf16 x bitsLt_bf16_f32) w p q

theorem row_lt (a : Fin 4) (p : Fin 1024) : 1024 * a.val + p.val < 4096 := by have := a.isLt; have := p.isLt; omega
theorem ti_lt (t : Fin cfg1.N) : t.val / 16 < 4 := by have : t.val < 64 := lt_of_lt_of_eq t.isLt N_1; omega
theorem tj_lt (t : Fin cfg1.N) : t.val / 4 % 4 < 4 := Nat.mod_lt _ (by decide)
theorem tk_lt (t : Fin cfg1.N) : t.val % 4 < 4 := Nat.mod_lt _ (by decide)

/-! Where the blocks lie.  Grid point t has coordinates (t / 16, t / 4 mod 4, t mod 4); the left operand's index
    map takes the first and the third, the right operand's the second and the third.  Decided over the 64 points. -/

theorem idx1_0 : ∀ t : Fin cfg1.N, win1_0.index t (0 : Fin 2) = t.val / 16 ∧ win1_0.index t (1 : Fin 2) = t.val % 4 :=
  (by decide +kernel : ∀ t : Fin grid1.N, win1_0.index t (0 : Fin 2) = t.val / 16 ∧ win1_0.index t (1 : Fin 2) = t.val % 4)
theorem idx1_1 : ∀ t : Fin cfg1.N, win1_1.index t (0 : Fin 2) = t.val / 4 % 4 ∧ win1_1.index t (1 : Fin 2) = t.val % 4 :=
  (by decide +kernel : ∀ t : Fin grid1.N, win1_1.index t (0 : Fin 2) = t.val / 4 % 4 ∧ win1_1.index t (1 : Fin 2) = t.val % 4)

/-- The left operand's block at point t = 16 i + 4 j + k is block (i, k) of the array: an element of a block sits
    at block index × 1024 + its coordinate inside the block, on each axis. -/
theorem iblk1_0_apply (c : Dev nD) (t : Fin cfg1.N) (p kk : Fin 1024) :
    iblk1 V c 0 t (ix2 p kk) = V c main_v2 (ix2 (⟨1024 * (t.val / 16) + p.val, row_lt ⟨_, ti_lt t⟩ p⟩ : Fin 4096) (Cert.Spec.tcol ⟨_, tk_lt t⟩ kk)) := by
  obtain ⟨e0, e1⟩ := idx1_0 t
  show V c main_v2 (((cfg1.win 0).blk t).view.emb (ix2 p kk)) = V c main_v2 _
  refine congrArg (V c main_v2) ?_
  funext a; apply Fin.ext
  match a with
  | ⟨0, _⟩ => show win1_0.index t (0 : Fin 2) * 1024 + 1 * p.val = 1024 * (t.val / 16) + p.val; omega
  | ⟨1, _⟩ => show win1_0.index t (1 : Fin 2) * 1024 + 1 * kk.val = 1024 * (t.val % 4) + kk.val; omega

/-- The right operand's block at point t = 16 i + 4 j + k is block (j, k) of the array. -/
theorem iblk1_1_apply (c : Dev nD) (t : Fin cfg1.N) (q kk : Fin 1024) :
    iblk1 V c 1 t (ix2 q kk) = V c main_v1 (ix2 (⟨1024 * (t.val / 4 % 4) + q.val, row_lt ⟨_, tj_lt t⟩ q⟩ : Fin 4096) (Cert.Spec.tcol ⟨_, tk_lt t⟩ kk)) := by
  obtain ⟨e0, e1⟩ := idx1_1 t
  show V c main_v1 (((cfg1.win 1).blk t).view.emb (ix2 q kk)) = V c main_v1 _
  refine congrArg (V c main_v1) ?_
  funext a; apply Fin.ext
  match a with
  | ⟨0, _⟩ => show win1_1.index t (0 : Fin 2) * 1024 + 1 * q.val = 1024 * (t.val / 4 % 4) + q.val; omega
  | ⟨1, _⟩ => show win1_1.index t (1 : Fin 2) * 1024 + 1 * kk.val = 1024 * (t.val % 4) + kk.val; omega

end Cert.KernelIdeal.Val

end
-- ==== Proof.KernelIdeal.ValR1B.lean ====
/- Region 1's output array: after the point with k = 3 of tile (i, j) the accumulator holds, at (p, q), the four tile
   sums added one after the other to zero, which is the whole dot product of row 1024 i + p of the left operand
   with row 1024 j + q of the right; the 16 blocks written back at those points tile the output array. -/
import proofs.«149595_j5093831213493_1_alg».proof.Proof.KernelIdeal.Region1Body
import proofs.«149595_j5093831213493_1_alg».proof.Proof.KernelIdeal.ValR1A
import proofs.«149595_j5093831213493_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The two operands as region 1 finds them, as arrays of extended reals. -/
abbrev opX (c : Dev nD) : S4096x4096.Idx → EReal := V c main_v2
abbrev opW (c : Dev nD) : S4096x4096.Idx → EReal := V c main_v1
/-- Region 1's output array after all 64 points, as an array of extended reals. -/
abbrev outY (c : Dev nD) : S4096x4096.Idx → EReal := (dat1 (F := Ideal) V c).arrAt 2 cfg1.N

/-- Tile `k`'s part of the dot product of row `rx` of the left operand with row `ro` of the right one. -/
def tileSum (c : Dev nD) (rx ro : Fin 4096) (k : Fin 4) : EReal :=
  ∑ kk : Fin 1024, opX V c (ix2 rx (Cert.Spec.tcol k kk)) * opW V c (ix2 ro (Cert.Spec.tcol k kk))

/-- The body's sum at point t = 16 i + 4 j + k, at (p, q) of the block: the accumulator's entry plus tile k's part
    of the dot product of row 1024 i + p of the left operand with row 1024 j + q of the right one. -/
theorem body_apply (c : Dev nD) (t : Fin cfg1.N) (a : Vec Ideal S1024x1024 .f32) (p q : Fin 1024) (rx ro : Fin 4096) (k : Fin 4)
    (hx : rx.val = 1024 * (t.val / 16) + p.val) (ho : ro.val = 1024 * (t.val / 4 % 4) + q.val) (hk : k.val = t.val % 4) :
    k1_pay2 (F := Ideal) (iblk1 V c 0 t) (iblk1 V c 1 t) a (ix2 p q) = a (ix2 p q) + tileSum V c rx ro k := by
  refine (pay2_apply _ _ _ p q).trans ?_
  refine congrArg (a (ix2 p q) + ·) ?_
  unfold tileSum
  refine Finset.sum_congr rfl fun kk _ => ?_
  obtain rfl : rx = ⟨1024 * (t.val / 16) + p.val, row_lt ⟨_, ti_lt t⟩ p⟩ := Fin.ext hx
  obtain rfl : ro = ⟨1024 * (t.val / 4 % 4) + q.val, row_lt ⟨_, tj_lt t⟩ q⟩ := Fin.ext ho
  obtain rfl : k = ⟨t.val % 4, tk_lt t⟩ := Fin.ext hk
  exact congrArg₂ (fun u v : EReal => u * v) (iblk1_0_apply V c t p kk) (iblk1_1_apply V c t q kk)

/-- After the point with k = 0 of a tile the accumulator holds zero plus tile 0's part. -/
theorem acc_first (c : Dev nD) (t : Fin cfg1.N) (h : t.val % 4 = 0) (p q : Fin 1024) (rx ro : Fin 4096)
    (hx : rx.val = 1024 * (t.val / 16) + p.val) (ho : ro.val = 1024 * (t.val / 4 % 4) + q.val) :
    accAt V c t.val t.isLt (ix2 p q) = 0 + tileSum V c rx ro 0 := by
  refine (congrFun (accAt_reset V c t h) (ix2 p q)).trans ?_
  refine (body_apply V c t _ p q rx ro 0 hx ho (by show 0 = t.val % 4; omega)).trans ?_
  rw [pay1_apply]

/-- After a point with k > 0 the accumulator holds what the point before left plus tile k's part. -/
theorem acc_next (c : Dev nD) (t : Fin cfg1.N) (k : Fin 4) (hk : k.val = t.val % 4) (h0 : ¬t.val % 4 = 0) (p q : Fin 1024) (rx ro : Fin 4096)
    (hx : rx.val = 1024 * (t.val / 16) + p.val) (ho : ro.val = 1024 * (t.val / 4 % 4) + q.val) :
    accAt V c t.val t.isLt (ix2 p q)
      = accAt V c (t.val - 1) (Nat.lt_of_le_of_lt (Nat.sub_le _ _) t.isLt) (ix2 p q) + tileSum V c rx ro k := by
  refine (congrFun (accAt_step V c t h0) (ix2 p q)).trans ?_
  exact body_apply V c t _ p q rx ro k hx ho hk

/-- After the point with k = 3 of tile (i, j) the accumulator holds at (p, q) the whole dot product of row
    1024 i + p of the left operand with row 1024 j + q of the right one: the three points before it have the
    same i and j, and the four tile sums added one after the other to zero are the sum over all 4096 columns. -/
theorem acc_last (c : Dev nD) (t : Fin cfg1.N) (h : t.val % 4 = 3) (p q : Fin 1024) (rx ro : Fin 4096)
    (hx : rx.val = 1024 * (t.val / 16) + p.val) (ho : ro.val = 1024 * (t.val / 4 % 4) + q.val) :
    accAt V c t.val t.isLt (ix2 p q) = ∑ i : Fin 4096, opX V c (ix2 rx i) * opW V c (ix2 ro i) := by
  have hN : t.val < cfg1.N := t.isLt
  refine Eq.trans ?_ (Cert.Spec.sum_tiles_acc (fun i : Fin 4096 => opX V c (ix2 rx i) * opW V c (ix2 ro i)))
  refine (acc_next V c t 3 (by show 3 = t.val % 4; omega) (by omega) p q rx ro hx ho).trans ?_
  refine congrArg (· + tileSum V c rx ro 3) ?_
  refine (acc_next V c ⟨t.val - 1, by omega⟩ 2 (by show 2 = (t.val - 1) % 4; omega) (by show ¬(t.val - 1) % 4 = 0; omega) p q rx ro
    (by show rx.val = 1024 * ((t.val - 1) / 16) + p.val; omega) (by show ro.val = 1024 * ((t.val - 1) / 4 % 4) + q.val; omega)).trans ?_
  refine congrArg (· + tileSum V c rx ro 2) ?_
  refine (acc_next V c ⟨t.val - 1 - 1, by omega⟩ 1 (by show 1 = (t.val - 1 - 1) % 4; omega) (by show ¬(t.val - 1 - 1) % 4 = 0; omega) p q rx ro
    (by show rx.val = 1024 * ((t.val - 1 - 1) / 16) + p.val; omega) (by show ro.val = 1024 * ((t.val - 1 - 1) / 4 % 4) + q.val; omega)).trans ?_
  refine congrArg (· + tileSum V c rx ro 1) ?_
  exact acc_first V c ⟨t.val - 1 - 1 - 1, by omega⟩ (by show (t.val - 1 - 1 - 1) % 4 = 0; omega) p q rx ro
    (by show rx.val = 1024 * ((t.val - 1 - 1 - 1) / 16) + p.val; omega) (by show ro.val = 1024 * ((t.val - 1 - 1 - 1) / 4 % 4) + q.val; omega)

/-! From blocks to the array. -/

/-- The product with the transpose as one array: entry (r, o) is the dot product of rows r and o of the operands. -/
abbrev prodT (c : Dev nD) : S4096x4096.Idx → EReal :=
  fun y => ∑ i : Fin 4096, opX V c (ix2 (y 0 : Fin 4096) i) * opW V c (ix2 (y 1 : Fin 4096) i)

/-- The output's index map, decided over the 64 points: point t = 16 i + 4 j + k has block (i, j). -/
theorem idx1_2 : ∀ t : Fin cfg1.N, win1_2.index t (0 : Fin 2) = t.val / 16 ∧ win1_2.index t (1 : Fin 2) = t.val / 4 % 4 :=
  (by decide +kernel : ∀ t : Fin grid1.N, win1_2.index t (0 : Fin 2) = t.val / 16 ∧ win1_2.index t (1 : Fin 2) = t.val / 4 % 4)

/-- What a point with k = 3 writes back is its block of the product: an element of block (i, j) sits at row
    1024 i + p and column 1024 j + q of the array. -/
theorem flushed1_2 (c : Dev nD) (t : Fin cfg1.N) (hf : (cfg1.win 2).flush t = true) :
    (dat1 V c).flushed 2 t = ((cfg1.win 2).blk t).view.read (Elt Ideal) (prodT V c) := by
  have h3 : t.val % 4 = 3 := (flush1_2 t).mp hf
  show (cfg1.win 2).cut (grid1.coords t) ((dat1 V c).after 2 t) = _
  rw [after1_2]
  obtain ⟨e0, e1⟩ := idx1_2 t
  funext j
  obtain ⟨p, q, rfl⟩ : ∃ (p q : Fin 1024), j = ix2 p q := ⟨j 0, j 1, eq_ix2 j⟩
  show accAt V c t.val t.isLt (ix2 p q) = prodT V c (((cfg1.win 2).blk t).view.emb (ix2 p q))
  exact acc_last V c t h3 p q _ _
    (show win1_2.index t (0 : Fin 2) * 1024 + 1 * p.val = 1024 * (t.val / 16) + p.val by omega)
    (show win1_2.index t (1 : Fin 2) * 1024 + 1 * q.val = 1024 * (t.val / 4 % 4) + q.val by omega)

/-- An index of the array is in point `t`'s block iff each coordinate is in the block's range on its axis. -/
theorem mem_blk1_2 (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v3).slice (win1_2.rect t)).set ↔ _
  rw [View.set_slice_whole, Rect.mem_set_unit]
  exact Iff.rfl

/-- The 16 blocks written back tile the array: entry (r, o) lies in the block of the point with i = r / 1024,
    j = o / 1024 and k = 3. -/
theorem cover1_2 (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  have hlt : 16 * ((i 0).val / 1024) + 4 * ((i 1).val / 1024) + 3 < cfg1.N := by have hN : cfg1.N = 64 := N_1; omega
  obtain ⟨e0, e1⟩ := idx1_2 ⟨_, hlt⟩
  refine ⟨⟨_, hlt⟩, (flush1_2 _).mpr (by show (16 * ((i 0).val / 1024) + 4 * ((i 1).val / 1024) + 3) % 4 = 3; omega), ?_⟩
  rw [mem_blk1_2]
  intro a
  match a with
  | ⟨0, _⟩ =>
    show win1_2.index ⟨_, hlt⟩ (0 : Fin 2) * 1024 ≤ (i 0).val ∧ (i 0).val < win1_2.index ⟨_, hlt⟩ (0 : Fin 2) * 1024 + 1024
    rw [e0]; show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win1_2.index ⟨_, hlt⟩ (1 : Fin 2) * 1024 ≤ (i 1).val ∧ (i 1).val < win1_2.index ⟨_, hlt⟩ (1 : Fin 2) * 1024 + 1024
    rw [e1]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- Region 1's output array after all 64 points is the product with the transpose. -/
theorem final1 (c : Dev nD) : outY V c = prodT V c :=
  Dat.arrAt_eq_of_cover (dat := dat1 V c) 2 (prodT V c) (fun t hf => flushed1_2 V c t hf) cover1_2

/-- Region 1's output array after all 64 points: the product with the transpose, index by index. -/
theorem final1_apply (c : Dev nD) (r o : Fin 4096) :
    outY V c (ix2 r o) = ∑ i : Fin 4096, opX V c (ix2 r i) * opW V c (ix2 o i) :=
  congrFun (final1 V c) (ix2 r o)

end Cert.KernelIdeal.Val

end
-- ==== Proof.KernelIdeal.ValHost.lean ====
/- The host reshapes between and after the two regions, read at an index, and the kernel's result as one function
   of the three arguments: the product's rows are the rows of x with the batch and sequence axes merged, its right
   operand the dequantised weights with the block and lane axes merged, and the result splits the rows again. -/
import proofs.«149595_j5093831213493_1_alg».proof.Proof.KernelIdeal.Run
import proofs.«149595_j5093831213493_1_alg».proof.Proof.KernelIdeal.ValR0
import proofs.«149595_j5093831213493_1_alg».proof.Proof.KernelIdeal.ValR1B
import proofs.«149595_j5093831213493_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (m : (ℓ : Loc nD τ sig) → Buf (Elt Ideal) ℓ)

theorem bs_lt (b : Fin 2) (s : Fin 2048) : 2048 * b.val + s.val < 4096 := by have := b.isLt; have := s.isLt; omega
theorem rb_lt (r : Fin 4096) : r.val / 2048 < 2 := by have := r.isLt; omega
theorem rs_lt (r : Fin 4096) : r.val % 2048 < 2048 := Nat.mod_lt _ (by decide)

/-- The left operand of the product: x with its first two axes merged. -/
theorem Ve2_v2_apply (c : Dev nD) (r i : Fin 4096) :
    Ve2 m c main_v2 (ix2 r i) = m ((c : Thread nD τ).loc main_arg0) (ix3 (⟨r.val / 2048, rb_lt r⟩ : Fin 2) (⟨r.val % 2048, rs_lt r⟩ : Fin 2048) i) := by
  -- The second reshape's result is x read at the same row-major position: (r / 2048 · 2048 + r mod 2048) · 4096 + i = r · 4096 + i;
  -- and x is untouched by region 0, whose arrays are the scales, the codes and its own output.
  have e : (Ve2 m c main_v2 : S4096x4096.Idx → EReal)
      = shapeCast _ (W1 m c (Proc.devRef .tc main_arg0)) shapeCasts_S2x2048x4096_S4096x4096 := by
    dsimp only [Ve2, W2, hostOps1]; after_results; rfl
  rw [e]
  refine (shapeCast_apply _ shapeCasts_S2x2048x4096_S4096x4096 (ix2 r i)
    (ix3 (⟨r.val / 2048, rb_lt r⟩ : Fin 2) (⟨r.val % 2048, rs_lt r⟩ : Fin 2048) i) ?_).trans ?_
  · rewrite [Shape.rowMajor_val_three, Shape.rowMajor_val_two]
    have hr := r.isLt; have hi := i.isLt
    show (r.val / 2048 * 2048 + r.val % 2048) * 4096 + i.val = r.val * 4096 + i.val
    omega
  · rw [W1_of_ne m c main_arg0 (by decide)]

/-- The right operand of the product: region 0's output with its last two axes merged. -/
theorem Ve2_v1_apply (c : Dev nD) (o i : Fin 4096) :
    Ve2 m c main_v1 (ix2 o i) = (dat0 (F := Ideal) (Ve0 m) c).arrAt 2 cfg0.N (ix3 o (⟨i.val / 32, Cert.Spec.blk_lt i⟩ : Fin 128) (⟨i.val % 32, Cert.Spec.lane_lt i⟩ : Fin 32)) := by
  -- The first reshape's result is region 0's output read at the same row-major position:
  -- (o · 128 + i / 32) · 32 + i mod 32 = o · 4096 + i.
  have e : (Ve2 m c main_v1 : S4096x4096.Idx → EReal)
      = shapeCast _ (W1 m c (Proc.devRef .tc main_v0)) shapeCasts_S4096x128x32_S4096x4096 := by
    dsimp only [Ve2, W2, hostOps1]; after_results; rfl
  rw [e]
  refine (shapeCast_apply _ shapeCasts_S4096x128x32_S4096x4096 (ix2 o i)
    (ix3 o (⟨i.val / 32, Cert.Spec.blk_lt i⟩ : Fin 128) (⟨i.val % 32, Cert.Spec.lane_lt i⟩ : Fin 32)) ?_).trans ?_
  · rewrite [Shape.rowMajor_val_three, Shape.rowMajor_val_two]
    have ho := o.isLt; have hi := i.isLt
    show (o.val * 128 + i.val / 32) * 32 + i.val % 32 = o.val * 4096 + i.val
    omega
  · exact congrFun (W1_arr m c 2) _

/-- The result: region 1's output with its rows split into batch and sequence. -/
theorem W4_v4_apply (c : Dev nD) (b : Fin 2) (s : Fin 2048) (o : Fin 4096) :
    W4 m c (Proc.devRef .tc main_v4) (ix3 b s o) = outY (Ve2 m) c (ix2 (⟨2048 * b.val + s.val, bs_lt b s⟩ : Fin 4096) o) := by
  -- The last reshape's result is region 1's output read at the same row-major position:
  -- (2048 · b + s) · 4096 + o = (b · 2048 + s) · 4096 + o.
  have e : (W4 m c (Proc.devRef .tc main_v4) : S2x2048x4096.Idx → EReal)
      = shapeCast _ (W3 m c (Proc.devRef .tc main_v3)) shapeCasts_S4096x4096_S2x2048x4096 := by
    dsimp only [W4, hostOps2]; after_results; rfl
  rw [e]
  refine (shapeCast_apply _ shapeCasts_S4096x4096_S2x2048x4096 (ix3 b s o)
    (ix2 (⟨2048 * b.val + s.val, bs_lt b s⟩ : Fin 4096) o) ?_).trans ?_
  · rewrite [Shape.rowMajor_val_three, Shape.rowMajor_val_two]
    have hb := b.isLt; have hs := s.isLt; have ho := o.isLt
    show (2048 * b.val + s.val) * 4096 + o.val = (b.val * 2048 + s.val) * 4096 + o.val
    omega
  · exact congrFun (W3_arr m c 2) _

/-- The specification read at one index. -/
private theorem G_apply (x : Cert.Spec.SX.Idx → Ideal .f32) (sc : Cert.Spec.SS.Idx → Ideal .f32) (cd : Cert.Spec.SC.Idx → BitVec 32)
    (b : Fin 2) (s : Fin 2048) (o : Fin 4096) :
    Cert.Spec.G x sc cd (ix3 b s o) = ∑ i : Fin 4096, x (ix3 b s i) * Cert.Spec.wq sc cd o i := rfl

/-- Two sums over the 4096 columns agree when their terms do. -/
private theorem sum_ext (f g : Fin 4096 → EReal) (h : ∀ i, f i = g i) : (∑ i, f i) = ∑ i, g i :=
  Finset.sum_congr rfl fun i _ => h i

/-- The kernel's result is the specification of its three arguments. -/
theorem kernel_value (c : Dev nD) :
    W4 m c (Proc.devRef .tc main_v4) = Cert.Spec.G (m ((c : Thread nD τ).loc main_arg0)) (m ((c : Thread nD τ).loc main_arg1)) (m ((c : Thread nD τ).loc main_arg2)) := by
  -- At (b, s, o): the split row 2048 · b + s of the product is Σ_i x-merged (row, i) · w-merged (o, i); the merged x at that
  -- row is x (b, s, i), since (2048 · b + s) / 2048 = b and (2048 · b + s) mod 2048 = s; the merged weights at (o, i) are
  -- the dequantised weight of block i / 32, lane i mod 32 of row o.
  funext y
  obtain ⟨b, s, o, rfl⟩ : ∃ (b : Fin 2) (s : Fin 2048) (o : Fin 4096), y = ix3 b s o := ⟨y 0, y 1, y 2, eq_ix3 y⟩
  rw [W4_v4_apply m c b s o, final1_apply (Ve2 m) c _ o]
  refine Eq.trans ?_ (G_apply _ _ _ b s o).symm
  refine sum_ext _ _ fun i => ?_
  have hb : (⟨(2048 * b.val + s.val) / 2048, rb_lt ⟨2048 * b.val + s.val, bs_lt b s⟩⟩ : Fin 2) = b :=
    Fin.ext (by have := b.isLt; have := s.isLt; show (2048 * b.val + s.val) / 2048 = b.val; omega)
  have hs : (⟨(2048 * b.val + s.val) % 2048, rs_lt ⟨2048 * b.val + s.val, bs_lt b s⟩⟩ : Fin 2048) = s :=
    Fin.ext (by have := b.isLt; have := s.isLt; show (2048 * b.val + s.val) % 2048 = s.val; omega)
  have hx : opX (Ve2 m) c (ix2 (⟨2048 * b.val + s.val, bs_lt b s⟩ : Fin 4096) i) = m ((c : Thread nD τ).loc main_arg0) (ix3 b s i) := by
    refine (Ve2_v2_apply m c _ i).trans ?_
    show m ((c : Thread nD τ).loc main_arg0) (ix3 (⟨(2048 * b.val + s.val) / 2048, _⟩ : Fin 2) (⟨(2048 * b.val + s.val) % 2048, _⟩ : Fin 2048) i) = _
    rw [hb, hs]
  have hw : opW (Ve2 m) c (ix2 o i) = Cert.Spec.wq (m ((c : Thread nD τ).loc main_arg1)) (m ((c : Thread nD τ).loc main_arg2)) o i := by
    refine (Ve2_v1_apply m c o i).trans ?_
    refine (final0_apply (Ve0 m) c o _ _).trans ?_
    rfl
  exact congrArg₂ (· * ·) hx hw

end Cert.KernelIdeal.Val

end
-- ==== Proof.RefValue.lean ====
/- The reference computes the specification: its matrix product, read at an index, is the sum over the 4096
   columns of x times the reshaped dequantised weight, and each weight is its block's scale times the signed code. -/
import proofs.«149595_j5093831213493_1_alg».proof.Proof.Gen.ReferenceIdeal.Read
import proofs.«149595_j5093831213493_1_alg».proof.Proof.Spec
import Idealize.ShloMosaic.Lib.ValueIdx

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- The left operand of the product is read at (batch, row, column k). -/
theorem lidx_eq (y : S2x2048x4096.Idx) (k : Fin 4096) : lidx_main_v7 y k = ix3 (y 0) (y 1) k :=
  funext fun a => by match a with | ⟨0, _⟩ => rfl | ⟨1, _⟩ => rfl | ⟨2, _⟩ => rfl

/-- The right operand of the product is read at (output column, column k). -/
theorem ridx_eq (y : S2x2048x4096.Idx) (k : Fin 4096) : ridx_main_v7 y k = ix2 (y 2) k :=
  funext fun a => by match a with | ⟨0, _⟩ => rfl | ⟨1, _⟩ => rfl

/-- The reshape reads entry (o, k) of the 4096 × 4096 matrix at row o, block k / 32, lane k mod 32:
    the flat position is o · 4096 + k with k < 4096. -/
theorem idx6_eq (o k : Fin 4096) :
    idx_main_v6 (ix2 o k) = ix3 o ⟨k.val / 32, Cert.Spec.blk_lt k⟩ ⟨k.val % 32, Cert.Spec.lane_lt k⟩ :=
  funext fun a => Fin.ext (by
    have ho := o.isLt
    have hk := k.isLt
    match a with
    | ⟨0, _⟩ => show (o.val * 4096 + k.val) / 4096 = o.val; omega
    | ⟨1, _⟩ => show (o.val * 4096 + k.val) / 32 % 128 = k.val / 32; omega
    | ⟨2, _⟩ => show (o.val * 4096 + k.val) % 32 = k.val % 32; omega)

/-- The two broadcasts of the scales read the scale of (row, block), whatever the lane. -/
theorem idx34_eq (o : Fin 4096) (b : Fin 128) (l : Fin 32) : idx_main_v3 (idx_main_v4 (ix3 o b l)) = ix2 o b :=
  funext fun a => by match a with | ⟨0, _⟩ => rfl | ⟨1, _⟩ => rfl

/-- Entry (o, k) of the reshaped dequantised matrix is the weight of row o, column k:
    the block's scale times the code converted to a float less 128. -/
theorem v6_point (x1 : (⟨S4096x128, .f32⟩ : BufTy).Contents (Elt Ideal)) (x2 : (⟨S4096x128x32, .i32⟩ : BufTy).Contents (Elt Ideal))
    (o k : Fin 4096) : val_main_v6 (F := Ideal) x1 x2 (ix2 o k) = Cert.Spec.wq x1 x2 o k := by
  rw [val_main_v6_apply, idx6_eq o k, val_main_v5_apply, val_main_v4_apply, val_main_v3_apply, idx34_eq,
    val_main_v2_apply, val_main_v1_apply, val_main_cst_apply, val_main_v0_apply]
  rfl

/-- The reference's result stage is the specification of its three arguments. -/
theorem ref_value (x0 : (⟨S2x2048x4096, .f32⟩ : BufTy).Contents (Elt Ideal)) (x1 : (⟨S4096x128, .f32⟩ : BufTy).Contents (Elt Ideal)) (x2 : (⟨S4096x128x32, .i32⟩ : BufTy).Contents (Elt Ideal)) :
    val_main_v7 (F := Ideal) x0 x1 x2 = Cert.Spec.G x0 x1 x2 := by
  funext y
  rw [val_main_v7_apply]
  show _ = ∑ i : Fin 4096, x0 (ix3 (y 0) (y 1) i) * Cert.Spec.wq x1 x2 (y 2) i
  refine Finset.sum_congr rfl fun k _ => ?_
  rw [lidx_eq, ridx_eq]
  exact congrArg (fun t => x0 (ix3 (y 0) (y 1) k) * t) (v6_point x1 x2 (y 2) k)

end Cert.ReferenceIdeal.RefValue

end
-- ==== Proof.lean ====
/- The proof of `Cert.Claim`: a block-quantised linear layer.  The kernel dequantises the weights in one call
   (scale · (code − 128) per element, narrowed to bf16) and multiplies the rows of x with the transpose of the
   weight matrix in a second call, tile by tile over a 4 × 4 × 4 grid with an accumulator carried along the
   contraction axis; the reference dequantises on the host and takes one matrix product.  Over the extended reals
   the narrowing is the identity and both compute  y (b, s, o) = Σ_i x (b, s, i) · scale (o, i / 32) · (code (o, i / 32, i mod 32) − 128):
   the kernel's four tile sums added one after the other to zero are the whole sum, by associativity and
   commutativity of addition alone, so the precondition is never opened.
   The three frames: both kernel programs run as two pipelined regions between host reshapes (Proof/Kernel*/Run.lean),
   the reference as a straight line of host operations.  `preserves` states nothing: the idealisation rewrote no operation. -/
import proofs.«149595_j5093831213493_1_alg».proof.Defs
import proofs.«149595_j5093831213493_1_alg».proof.Proof.Gen.Kernel
import proofs.«149595_j5093831213493_1_alg».proof.Proof.Gen.KernelIdeal
import proofs.«149595_j5093831213493_1_alg».proof.Proof.Gen.ReferenceIdeal
import proofs.«149595_j5093831213493_1_alg».proof.Proof.Gen.Pre_finite_inputs
import proofs.«149595_j5093831213493_1_alg».proof.Proof.Gen.ReferenceIdeal.Run
import proofs.«149595_j5093831213493_1_alg».proof.Proof.Gen.ReferenceIdeal.Read
import proofs.«149595_j5093831213493_1_alg».proof.Proof.Kernel.Run
import proofs.«149595_j5093831213493_1_alg».proof.Proof.KernelIdeal.Run
import proofs.«149595_j5093831213493_1_alg».proof.Proof.KernelIdeal.ValHost
import proofs.«149595_j5093831213493_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the specification's array of those arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Hand.run_main m ρ)
    · exact (h c _ (Cert.KernelIdeal.Hand.mem_uc Cert.KernelIdeal.main_v4 (by decide))).trans (Cert.KernelIdeal.Val.kernel_value m c)
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
    · exact (h c _ (Cert.KernelIdeal.Hand.mem_uc Cert.KernelIdeal.main_arg2 (by decide))).trans (Cert.KernelIdeal.Hand.W4_main_arg2 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.RefValue.ref_value, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
